-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x8192 : Shape := ⟨2, ![100, 8192]⟩
abbrev S8192x8192 : Shape := ⟨2, ![8192, 8192]⟩
abbrev S_ : Shape := ⟨0, ![]⟩

class Facts : Prop where
  bcast_S_S100x8192 : S_.BroadcastsInDim S100x8192 (![] : Fin 0 → Fin S100x8192.rank)
  reducesTo_S100x8192_S_d0_1 : S100x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S100x8192 .f32) (main_arg1 : FVec F S100x8192 .f32) (main_arg2 : FVec F S8192x8192 .f32) : IVec S_ 1 :=
  let main_v0 : FVec F S100x8192 .f32 := Host.absf main_arg0
  let main_cst : FVec F S_ .f32 := constant S_ .f32 0x7F800000#32
  let main_v1 : FVec F S100x8192 .f32 := broadcastInDim S100x8192 ![] bcast_S_S100x8192 main_cst
  let main_v2 : IVec S100x8192 1 := cmpf .olt main_v0 main_v1
  let main_c : IVec S_ 1 := constantI S_ 1 1#1
  let main_v3 : IVec S_ 1 := (fun x v => Host.reduce IntOp.andi x v reducesTo_S100x8192_S_d0_1 h_S_) main_v2 main_c
  let main_v4 : FVec F S100x8192 .f32 := Host.absf main_arg1
  let main_cst_0 : FVec F S_ .f32 := constant S_ .f32 0x7F800000#32
  let main_v5 : FVec F S100x8192 .f32 := broadcastInDim S100x8192 ![] bcast_S_S100x8192 main_cst_0
  let main_v6 : IVec S100x8192 1 := cmpf .olt main_v4 main_v5
  let main_c_1 : IVec S_ 1 := constantI S_ 1 1#1
  let main_v7 : IVec S_ 1 := (fun x v => Host.reduce IntOp.andi x v reducesTo_S100x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S100x8192 : Shape := ⟨2, ![100, 8192]⟩
abbrev S8192x8192 : Shape := ⟨2, ![8192, 8192]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S8192x100 : Shape := ⟨2, ![8192, 100]⟩
abbrev S1x1 : Shape := ⟨2, ![1, 1]⟩
abbrev S8192x256 : Shape := ⟨2, ![8192, 256]⟩
abbrev S100x256 : Shape := ⟨2, ![100, 256]⟩
abbrev S1 : Shape := ⟨1, ![1]⟩

abbrev nBuf : Space → Nat
  | .hbm => 116
  | .vmem => 5
  | .smem => 0
  | _ => 0

abbrev bufTy : (tb : Table) → Fin (tcTables nBuf tb) → BufTy
  | .hbm, ⟨0, _⟩ => ⟨S100x8192, .f32⟩
  | .hbm, ⟨1, _⟩ => ⟨S100x8192, .f32⟩
  | .hbm, ⟨2, _⟩ => ⟨S8192x8192, .f32⟩
  | .hbm, ⟨3, _⟩ => ⟨S100x8192, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x8192, .f32⟩
  | .hbm, ⟨8, _⟩ => ⟨S_, .f32⟩
  | .hbm, ⟨9, _⟩ => ⟨S100, .f32⟩
  | .hbm, ⟨10, _⟩ => ⟨S1x100, .f32⟩
  | .hbm, ⟨11, _⟩ => ⟨S100x100, .f32⟩
  | .hbm, ⟨12, _⟩ => ⟨S100x100, .f32⟩
  | .hbm, ⟨13, _⟩ => ⟨S100x100, .f32⟩
  | .hbm, ⟨14, _⟩ => ⟨S8192x100, .f32⟩
  | .hbm, ⟨15, _⟩ => ⟨S100x100, .f32⟩
  | .hbm, ⟨16, _⟩ => ⟨S_, .f32⟩
  | .hbm, ⟨17, _⟩ => ⟨S100x100, .f32⟩
  | .hbm, ⟨18, _⟩ => ⟨S100x100, .f32⟩
  | .hbm, ⟨19, _⟩ => ⟨S100x100, .f32⟩
  | .hbm, ⟨20, _⟩ => ⟨S100x100, .f32⟩
  | .hbm, ⟨21, _⟩ => ⟨S_, .f32⟩
  | .hbm, ⟨22, _⟩ => ⟨S100x100, .f32⟩
  | .hbm, ⟨23, _⟩ => ⟨S100x100, .f32⟩
  | .hbm, ⟨24, _⟩ => ⟨S100x100, .f32⟩
  | .hbm, ⟨25, _⟩ => ⟨S100x8192, .f32⟩
  | .hbm, ⟨26, _⟩ => ⟨S_, .f32⟩
  | .hbm, ⟨27, _⟩ => ⟨S100, .f32⟩
  | .hbm, ⟨28, _⟩ => ⟨S100x1, .f32⟩
  | .hbm, ⟨29, _⟩ => ⟨S100x8192, .f32⟩
  | .hbm, ⟨30, _⟩ => ⟨S_, .f32⟩
  | .hbm, ⟨31, _⟩ => ⟨S100, .f32⟩
  | .hbm, ⟨32, _⟩ => ⟨S1x100, .f32⟩
  | .hbm, ⟨33, _⟩ => ⟨S100x100, .f32⟩
  | .hbm, ⟨34, _⟩ => ⟨S100x100, .f32⟩
  | .hbm, ⟨35, _⟩ => ⟨S100x100, .f32⟩
  | .hbm, ⟨36, _⟩ => ⟨S8192x100, .f32⟩
  | .hbm, ⟨37, _⟩ => ⟨S100x100, .f32⟩
  | .hbm, ⟨38, _⟩ => ⟨S_, .f32⟩
  | .hbm, ⟨39, _⟩ => ⟨S100x100, .f32⟩
  | .hbm, ⟨40, _⟩ => ⟨S100x100, .f32⟩
  | .hbm, ⟨41, _⟩ => ⟨S100x100, .f32⟩
  | .hbm, ⟨42, _⟩ => ⟨S100x100, .f32⟩
  | .hbm, ⟨43, _⟩ => ⟨S_, .f32⟩
  | .hbm, ⟨44, _⟩ => ⟨S100x100, .f32⟩
  | .hbm, ⟨45, _⟩ => ⟨S100x100, .f32⟩
  | .hbm, ⟨46, _⟩ => ⟨S100x100, .f32⟩
  | .hbm, ⟨47, _⟩ => ⟨S100x8192, .f32⟩
  | .hbm, ⟨48, _⟩ => ⟨S_, .f32⟩
  | .hbm, ⟨49, _⟩ => ⟨S100, .f32⟩
  | .hbm, ⟨50, _⟩ => ⟨S100x1, .f32⟩
  | .hbm, ⟨51, _⟩ => ⟨S100x8192, .f32⟩
  | .hbm, ⟨52, _⟩ => ⟨S_, .f32⟩
  | .hbm, ⟨53, _⟩ => ⟨S100, .f32⟩
  | .hbm, ⟨54, _⟩ => ⟨S1x100, .f32⟩
  | .hbm, ⟨55, _⟩ => ⟨S100x100, .f32⟩
  | .hbm, ⟨56, _⟩ => ⟨S100x100, .f32⟩
  | .hbm, ⟨57, _⟩ => ⟨S100x100, .f32⟩
  | .hbm, ⟨58, _⟩ => ⟨S8192x100, .f32⟩
  | .hbm, ⟨59, _⟩ => ⟨S100x100, .f32⟩
  | .hbm, ⟨60, _⟩ => ⟨S_, .f32⟩
  | .hbm, ⟨61, _⟩ => ⟨S100x100, .f32⟩
  | .hbm, ⟨62, _⟩ => ⟨S100x100, .f32⟩
  | .hbm, ⟨63, _⟩ => ⟨S100x100, .f32⟩
  | .hbm, ⟨64, _⟩ => ⟨S100x100, .f32⟩
  | .hbm, ⟨65, _⟩ => ⟨S_, .f32⟩
  | .hbm, ⟨66, _⟩ => ⟨S100x100, .f32⟩
  | .hbm, ⟨67, _⟩ => ⟨S100x100, .f32⟩
  | .hbm, ⟨68, _⟩ => ⟨S100x100, .f32⟩
  | .hbm, ⟨69, _⟩ => ⟨S100x100, .i32⟩
  | .hbm, ⟨70, _⟩ => ⟨S_, .i32⟩
  | .hbm, ⟨71, _⟩ => ⟨S100x100, .i32⟩
  | .hbm, ⟨72, _⟩ => ⟨S100x100, .i32⟩
  | .hbm, ⟨73, _⟩ => ⟨S100x100, .i32⟩
  | .hbm, ⟨74, _⟩ => ⟨S100x100, .i1⟩
  | .hbm, ⟨75, _⟩ => ⟨S_, .f32⟩
  | .hbm, ⟨76, _⟩ => ⟨S100x100, .f32⟩
  | .hbm, ⟨77, _⟩ => ⟨S100x100, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S100x100, .i32⟩
  | .hbm, ⟨83, _⟩ => ⟨S_, .i32⟩
  | .hbm, ⟨84, _⟩ => ⟨S100x100, .i32⟩
  | .hbm, ⟨85, _⟩ => ⟨S100x100, .i32⟩
  | .hbm, ⟨86, _⟩ => ⟨S100x100, .i32⟩
  | .hbm, ⟨87, _⟩ => ⟨S100x100, .i1⟩
  | .hbm, ⟨88, _⟩ => ⟨S_, .f32⟩
  | .hbm, ⟨89, _⟩ => ⟨S100x100, .f32⟩
  | .hbm, ⟨90, _⟩ => ⟨S100x100, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100x100, .i32⟩
  | .hbm, ⟨96, _⟩ => ⟨S_, .i32⟩
  | .hbm, ⟨97, _⟩ => ⟨S100x100, .i32⟩
  | .hbm, ⟨98, _⟩ => ⟨S100x100, .i32⟩
  | .hbm, ⟨99, _⟩ => ⟨S100x100, .i32⟩
  | .hbm, ⟨100, _⟩ => ⟨S100x100, .i1⟩
  | .hbm, ⟨101, _⟩ => ⟨S_, .f32⟩
  | .hbm, ⟨102, _⟩ => ⟨S100x100, .f32⟩
  | .hbm, ⟨103, _⟩ => ⟨S100x100, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S100x8192, .f32⟩
  | .hbm, ⟨113, _⟩ => ⟨S1x1, .f32⟩
  | .hbm, ⟨114, _⟩ => ⟨S_, .f32⟩
  | .hbm, ⟨115, _⟩ => ⟨S_, .f32⟩
  | .local _ .vmem, ⟨0, _⟩ => ⟨S100x8192, .f32⟩
  | .local _ .vmem, ⟨1, _⟩ => ⟨S8192x256, .f32⟩
  | .local _ .vmem, ⟨2, _⟩ => ⟨S8192x256, .f32⟩
  | .local _ .vmem, ⟨3, _⟩ => ⟨S1x1, .f32⟩
  | .local _ .vmem, ⟨4, _⟩ => ⟨S1x1, .f32⟩
  | _, _ => ⟨S100x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_cst : Ref sig .tc := ⟨.hbm, 88, rfl⟩
abbrev main_call1_v5 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_cst : Ref sig .tc := ⟨.hbm, 101, rfl⟩
abbrev main_call2_v5 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v19 : BitVec 1 := Scalar.cmpi .eq arg0 c31_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S100x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S100x8192_S100_d1 : S100x8192.ReducesTo [1] S100
  h_S_ : 0 < S_.numel
  bcast_S100_S100x1_0 : S100.BroadcastsInDim S100x1 (![0] : Fin 1 → Fin S100x1.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  transposes_S100x8192_S8192x100_1_0 : S100x8192.Transposes [1, 0] S8192x100
  bcast_S_S100x100 : S_.BroadcastsInDim S100x100 (![] : Fin 0 → Fin S100x100.rank)
  reducesTo_S100x100_S_d0_1 : S100x100.ReducesTo [0, 1] S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S100x8192_S100x8192_0_0 : ∀ a, (![0, 0] : Fin 2 → Nat) a + S100x8192.size a ≤ S100x8192.size a
  h_S100x8192 : 0 < S100x8192.numel
  shapeCasts_S100x8192_S100x8192 : S100x8192.ShapeCasts S100x8192
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  reduces_S100x256_S100 : S100x256.Reduces [1] S100
  shapeCasts_S100_S100x1 : S100.ShapeCasts S100x1
  reduces_S100x1_S1 : S100x1.Reduces [0] S1
  shapeCasts_S1_S1x1 : S1.ShapeCasts S1x1
  shapeCasts_S1x1_S_ : S1x1.ShapeCasts S_
  dot_S100x8192_S8192x100_S100x100_1_0_0_1_n_n_wf : DotDims.WF S100x8192 S8192x100 S100x100 [1] [0] [0] [1] [] []
  dot_S100x8192_S8192x256_S100x256_1_0_0_1_n_n_wf : DotDims.WF S100x8192 S8192x256 S100x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x8192.size a ≤ S100x8192.size a
  hwx0_0 : ∀ i : grid0.Coords, EltTy.bits .f32 = 32 ∨ (Rect.block (s := S100x8192) S100x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x8192.size a
  hwx0_1 : ∀ i : grid0.Coords, EltTy.bits .f32 = 32 ∨ (Rect.block (s := S8192x8192) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def dot_S100x8192_S8192x256_S100x256_1_0_0_1_n_n : DotDims S100x8192 S8192x256 S100x256 where
  lhsContracting := [1]
  rhsContracting := [0]
  lhsNonContracting := [0]
  rhsNonContracting := [1]
  lhsBatch := []
  rhsBatch := []
  wf := dot_S100x8192_S8192x256_S100x256_1_0_0_1_n_n_wf

abbrev win0_0 : Pipeline.Window sig grid0 :=
  Pipeline.Window.ofSpec (Memref.whole main_v66) S100x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100x8192 : Shape := ⟨2, ![100, 8192]⟩
abbrev S8192x8192 : Shape := ⟨2, ![8192, 8192]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S8192x100 : Shape := ⟨2, ![8192, 100]⟩

abbrev nBuf : Space → Nat
  | .hbm => 118
  | .vmem => 0
  | .smem => 0
  | _ => 0

abbrev bufTy : (tb : Table) → Fin (tcTables nBuf tb) → BufTy
  | .hbm, ⟨0, _⟩ => ⟨S100x8192, .f32⟩
  | .hbm, ⟨1, _⟩ => ⟨S100x8192, .f32⟩
  | .hbm, ⟨2, _⟩ => ⟨S8192x8192, .f32⟩
  | .hbm, ⟨3, _⟩ => ⟨S100x8192, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x8192, .f32⟩
  | .hbm, ⟨8, _⟩ => ⟨S_, .f32⟩
  | .hbm, ⟨9, _⟩ => ⟨S100, .f32⟩
  | .hbm, ⟨10, _⟩ => ⟨S1x100, .f32⟩
  | .hbm, ⟨11, _⟩ => ⟨S100x100, .f32⟩
  | .hbm, ⟨12, _⟩ => ⟨S100x100, .f32⟩
  | .hbm, ⟨13, _⟩ => ⟨S100x100, .f32⟩
  | .hbm, ⟨14, _⟩ => ⟨S8192x100, .f32⟩
  | .hbm, ⟨15, _⟩ => ⟨S100x100, .f32⟩
  | .hbm, ⟨16, _⟩ => ⟨S_, .f32⟩
  | .hbm, ⟨17, _⟩ => ⟨S100x100, .f32⟩
  | .hbm, ⟨18, _⟩ => ⟨S100x100, .f32⟩
  | .hbm, ⟨19, _⟩ => ⟨S100x100, .f32⟩
  | .hbm, ⟨20, _⟩ => ⟨S100x100, .f32⟩
  | .hbm, ⟨21, _⟩ => ⟨S_, .f32⟩
  | .hbm, ⟨22, _⟩ => ⟨S100x100, .f32⟩
  | .hbm, ⟨23, _⟩ => ⟨S100x100, .f32⟩
  | .hbm, ⟨24, _⟩ => ⟨S100x100, .f32⟩
  | .hbm, ⟨25, _⟩ => ⟨S100x8192, .f32⟩
  | .hbm, ⟨26, _⟩ => ⟨S_, .f32⟩
  | .hbm, ⟨27, _⟩ => ⟨S100, .f32⟩
  | .hbm, ⟨28, _⟩ => ⟨S100x1, .f32⟩
  | .hbm, ⟨29, _⟩ => ⟨S100x8192, .f32⟩
  | .hbm, ⟨30, _⟩ => ⟨S_, .f32⟩
  | .hbm, ⟨31, _⟩ => ⟨S100, .f32⟩
  | .hbm, ⟨32, _⟩ => ⟨S1x100, .f32⟩
  | .hbm, ⟨33, _⟩ => ⟨S100x100, .f32⟩
  | .hbm, ⟨34, _⟩ => ⟨S100x100, .f32⟩
  | .hbm, ⟨35, _⟩ => ⟨S100x100, .f32⟩
  | .hbm, ⟨36, _⟩ => ⟨S8192x100, .f32⟩
  | .hbm, ⟨37, _⟩ => ⟨S100x100, .f32⟩
  | .hbm, ⟨38, _⟩ => ⟨S_, .f32⟩
  | .hbm, ⟨39, _⟩ => ⟨S100x100, .f32⟩
  | .hbm, ⟨40, _⟩ => ⟨S100x100, .f32⟩
  | .hbm, ⟨41, _⟩ => ⟨S100x100, .f32⟩
  | .hbm, ⟨42, _⟩ => ⟨S100x100, .f32⟩
  | .hbm, ⟨43, _⟩ => ⟨S_, .f32⟩
  | .hbm, ⟨44, _⟩ => ⟨S100x100, .f32⟩
  | .hbm, ⟨45, _⟩ => ⟨S100x100, .f32⟩
  | .hbm, ⟨46, _⟩ => ⟨S100x100, .f32⟩
  | .hbm, ⟨47, _⟩ => ⟨S100x8192, .f32⟩
  | .hbm, ⟨48, _⟩ => ⟨S_, .f32⟩
  | .hbm, ⟨49, _⟩ => ⟨S100, .f32⟩
  | .hbm, ⟨50, _⟩ => ⟨S100x1, .f32⟩
  | .hbm, ⟨51, _⟩ => ⟨S100x8192, .f32⟩
  | .hbm, ⟨52, _⟩ => ⟨S_, .f32⟩
  | .hbm, ⟨53, _⟩ => ⟨S100, .f32⟩
  | .hbm, ⟨54, _⟩ => ⟨S1x100, .f32⟩
  | .hbm, ⟨55, _⟩ => ⟨S100x100, .f32⟩
  | .hbm, ⟨56, _⟩ => ⟨S100x100, .f32⟩
  | .hbm, ⟨57, _⟩ => ⟨S100x100, .f32⟩
  | .hbm, ⟨58, _⟩ => ⟨S8192x100, .f32⟩
  | .hbm, ⟨59, _⟩ => ⟨S100x100, .f32⟩
  | .hbm, ⟨60, _⟩ => ⟨S_, .f32⟩
  | .hbm, ⟨61, _⟩ => ⟨S100x100, .f32⟩
  | .hbm, ⟨62, _⟩ => ⟨S100x100, .f32⟩
  | .hbm, ⟨63, _⟩ => ⟨S100x100, .f32⟩
  | .hbm, ⟨64, _⟩ => ⟨S100x100, .f32⟩
  | .hbm, ⟨65, _⟩ => ⟨S_, .f32⟩
  | .hbm, ⟨66, _⟩ => ⟨S100x100, .f32⟩
  | .hbm, ⟨67, _⟩ => ⟨S100x100, .f32⟩
  | .hbm, ⟨68, _⟩ => ⟨S100x100, .f32⟩
  | .hbm, ⟨69, _⟩ => ⟨S100x100, .i32⟩
  | .hbm, ⟨70, _⟩ => ⟨S_, .i32⟩
  | .hbm, ⟨71, _⟩ => ⟨S100x100, .i32⟩
  | .hbm, ⟨72, _⟩ => ⟨S100x100, .i32⟩
  | .hbm, ⟨73, _⟩ => ⟨S100x100, .i32⟩
  | .hbm, ⟨74, _⟩ => ⟨S100x100, .i1⟩
  | .hbm, ⟨75, _⟩ => ⟨S_, .f32⟩
  | .hbm, ⟨76, _⟩ => ⟨S100x100, .f32⟩
  | .hbm, ⟨77, _⟩ => ⟨S100x100, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S100x100, .i32⟩
  | .hbm, ⟨83, _⟩ => ⟨S_, .i32⟩
  | .hbm, ⟨84, _⟩ => ⟨S100x100, .i32⟩
  | .hbm, ⟨85, _⟩ => ⟨S100x100, .i32⟩
  | .hbm, ⟨86, _⟩ => ⟨S100x100, .i32⟩
  | .hbm, ⟨87, _⟩ => ⟨S100x100, .i1⟩
  | .hbm, ⟨88, _⟩ => ⟨S_, .f32⟩
  | .hbm, ⟨89, _⟩ => ⟨S100x100, .f32⟩
  | .hbm, ⟨90, _⟩ => ⟨S100x100, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100x100, .i32⟩
  | .hbm, ⟨96, _⟩ => ⟨S_, .i32⟩
  | .hbm, ⟨97, _⟩ => ⟨S100x100, .i32⟩
  | .hbm, ⟨98, _⟩ => ⟨S100x100, .i32⟩
  | .hbm, ⟨99, _⟩ => ⟨S100x100, .i32⟩
  | .hbm, ⟨100, _⟩ => ⟨S100x100, .i1⟩
  | .hbm, ⟨101, _⟩ => ⟨S_, .f32⟩
  | .hbm, ⟨102, _⟩ => ⟨S100x100, .f32⟩
  | .hbm, ⟨103, _⟩ => ⟨S100x100, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S100x8192, .f32⟩
  | .hbm, ⟨113, _⟩ => ⟨S100x8192, .f32⟩
  | .hbm, ⟨114, _⟩ => ⟨S100x8192, .f32⟩
  | .hbm, ⟨115, _⟩ => ⟨S_, .f32⟩
  | .hbm, ⟨116, _⟩ => ⟨S_, .f32⟩
  | .hbm, ⟨117, _⟩ => ⟨S_, .f32⟩
  | _, _ => ⟨S100x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_cst : Ref sig .tc := ⟨.hbm, 88, rfl⟩
abbrev main_call1_v5 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_cst : Ref sig .tc := ⟨.hbm, 101, rfl⟩
abbrev main_call2_v5 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩

abbrev nD : Nat := 1
abbrev τ : Topo := Topo.v7x

variable {F : FTy → Type} [FloatOps F]

class Facts₀ : Prop where
  reducesTo_S100x8192_S100_d1 : S100x8192.ReducesTo [1] S100
  h_S_ : 0 < S_.numel
  bcast_S100_S100x1_0 : S100.BroadcastsInDim S100x1 (![0] : Fin 1 → Fin S100x1.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  transposes_S100x8192_S8192x100_1_0 : S100x8192.Transposes [1, 0] S8192x100
  bcast_S_S100x100 : S_.BroadcastsInDim S100x100 (![] : Fin 0 → Fin S100x100.rank)
  reducesTo_S100x100_S_d0_1 : S100x100.ReducesTo [0, 1] S_
  reducesTo_S100x8192_S_d0_1 : S100x8192.ReducesTo [0, 1] S_
  dot_S100x8192_S8192x100_S100x100_1_0_0_1_n_n_wf : DotDims.WF S100x8192 S8192x100 S100x100 [1] [0] [0] [1] [] []
  dot_S100x8192_S8192x8192_S100x8192_1_0_0_1_n_n_wf : DotDims.WF S100x8192 S8192x8192 S100x8192 [1] [0] [0] [1] [] []

variable [Facts₀]

def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def dot_S100x8192_S8192x8192_S100x8192_1_0_0_1_n_n : DotDims S100x8192 S8192x8192 S100x8192 where
  lhsContracting := [1]
  rhsContracting := [0]
  lhsNonContracting := [0]
  rhsNonContracting := [1]
  lhsBatch := []
  rhsBatch := []
  wf := dot_S100x8192_S8192x8192_S100x8192_1_0_0_1_n_n_wf

class Facts : Prop extends Facts₀ where

variable [Facts]
-- ==== Proof.Pieces.lean ====
/-
  What the kernel body leaves in its one-cell accumulator and in its one-cell output, case by case, at any float
  instance.

  The body runs in one of three cases, decided by the grid point: at the first point it stores the zero cell into the
  accumulator and then the update `acc + partial` over it; at a middle point only the update; at the last point the
  update and then a copy of the accumulator into the output block. In every case the accumulator ends at the update's
  value, one pure function (the generated payload `k0_pay2`) of the two input blocks and of what the accumulator held
  when the update read it: the zero cell (`k0_pay1`) at the first point, and what the point before left otherwise. At
  the last point the output block holds the same value, since the copy reads the accumulator after the update.
  Each statement is the read-back of the stores the run found: one store covering the cell, or the reset followed by the
  update that covers it again, the update's read of the accumulator being a read of the reset's value.
-/
import proofs.«145861_j36756330119753_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle point: the accumulator, found at `xs0`, ends at the update of `xs0` by the two input blocks. -/
theorem scratch_B (c : Dev nD) (i : grid0.Coords) (a1 : Memref sig .tc .vmem S100x8192 .f32) (h1 : a1.IsWhole)
    (a2 : Memref sig .tc .vmem S8192x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S100x8192 .f32) (x1 : Vec F S8192x256 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S100x8192) hz,
    View.ld_unit_zero (S := S8192x256) hz, View.ld_unit_zero (S := S1x1) hz]

/-- The last point: the accumulator ends at the same update, -/
theorem scratch_C (c : Dev nD) (i : grid0.Coords) (a1 : Memref sig .tc .vmem S100x8192 .f32) (h1 : a1.IsWhole)
    (a2 : Memref sig .tc .vmem S8192x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S100x8192 .f32) (x1 : Vec F S8192x256 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S100x8192) hz,
    View.ld_unit_zero (S := S8192x256) hz, View.ld_unit_zero (S := S1x1) hz]

/-- and the output block holds it too: the copy reads the accumulator after the update has covered it. -/
theorem out_C (c : Dev nD) (i : grid0.Coords) (a1 : Memref sig .tc .vmem S100x8192 .f32) (h1 : a1.IsWhole)
    (a2 : Memref sig .tc .vmem S8192x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S100x8192 .f32) (x1 : Vec F S8192x256 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S100x8192) hz,
    View.ld_unit_zero (S := S8192x256) hz, View.ld_unit_zero (S := S1x1) hz]

/-- The first point: the reset stores the zero cell, the update reads it back, and the accumulator ends at the update
    of the zero cell by the two input blocks. -/
theorem scratch_A (c : Dev nD) (i : grid0.Coords) (a1 : Memref sig .tc .vmem S100x8192 .f32) (h1 : a1.IsWhole)
    (a2 : Memref sig .tc .vmem S8192x256 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S100x8192 .f32) (x1 : Vec F S8192x256 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S100x8192) hz,
    View.ld_unit_zero (S := S8192x256) hz]

end Cert.KernelIdeal.Body

end
-- ==== Proof.FrobSpec.lean ====
/-
  The weighted Frobenius term as a sum over the extended reals.

  For a 100×8192 array `d` and an 8192×8192 array `w`, entry (i, j) of the product is `Σ_k d (i, k) · w (k, j)`
  and the Frobenius term is the sum of the squares of all 100 × 8192 entries. The columns 0 … 8191 split into 32
  tiles of 256 consecutive columns (column `256 n + j` is column `j` of tile `n`); summing the squares tile by
  tile, each tile row by row, and then adding the 32 tile sums gives the same extended real: addition on the
  extended reals is commutative and associative, and nothing else is used, so no finiteness is needed.
-/
import Idealize.ShloMosaic.PureOps.Ideal.Laws
import Idealize.ShloMosaic.Lib.ValueIdx

noncomputable section

namespace Cert.Frob

open Idealize.ShloMosaic Idealize.ShloMosaic.ValueIdx

/-- Column `j` of tile `n`: column `256 n + j` of the whole array. -/
def col (n : Fin 32) (j : Fin 256) : Fin 8192 := ⟨256 * n.val + j.val, by omega⟩

/-- Tile and column inside the tile, together, are the 8192 columns. -/
def colEquiv : Fin 32 × Fin 256 ≃ Fin 8192 where
  toFun p := col p.1 p.2
  invFun q := (⟨q.val / 256, by omega⟩, ⟨q.val % 256, Nat.mod_lt _ (by decide)⟩)
  left_inv p := by
    obtain ⟨n, j⟩ := p
    refine Prod.ext (Fin.ext ?_) (Fin.ext ?_)
    · show (256 * n.val + j.val) / 256 = n.val
      omega
    · show (256 * n.val + j.val) % 256 = j.val
      omega
  right_inv q := Fin.ext (by
    show 256 * (q.val / 256) + q.val % 256 = q.val
    omega)

/-- A sum over the tiles of the sums over a tile's columns is the sum over all columns. -/
theorem sum_cols {M : Type*} [AddCommMonoid M] (g : Fin 8192 → M) :
    ∑ n : Fin 32, ∑ j : Fin 256, g (col n j) = ∑ q : Fin 8192, g q := by
  rw [← Fintype.sum_prod_type' (f := fun n j => g (col n j))]
  exact Fintype.sum_equiv colEquiv _ _ (fun _ => rfl)

/-- Tile by tile, then row by row inside a tile, is row by row over all columns. -/
theorem sum_tiles {M : Type*} [AddCommMonoid M] (f : Fin 100 → Fin 8192 → M) :
    ∑ n : Fin 32, ∑ i : Fin 100, ∑ j : Fin 256, f i (col n j) = ∑ i : Fin 100, ∑ q : Fin 8192, f i q := by
  rw [Finset.sum_comm]
  exact Finset.sum_congr rfl fun i _ => sum_cols (f i)

/-- Entry (i, j) of the product `d · w`. -/
def prodAt (d : (⟨2, ![100, 8192]⟩ : Shape).Idx → EReal) (w : (⟨2, ![8192, 8192]⟩ : Shape).Idx → EReal)
    (i : Fin 100) (j : Fin 8192) : EReal :=
  ∑ k : Fin 8192, d (ix2 i k) * w (ix2 k j)

/-- The sum of the squared entries of tile `n` of the product. -/
def tileSq (d : (⟨2, ![100, 8192]⟩ : Shape).Idx → EReal) (w : (⟨2, ![8192, 8192]⟩ : Shape).Idx → EReal)
    (n : Fin 32) : EReal :=
  ∑ i : Fin 100, ∑ j : Fin 256, prodAt d w i (col n j) * prodAt d w i (col n j)

/-- The sum of the squared entries of the whole product. -/
def frobSq (d : (⟨2, ![100, 8192]⟩ : Shape).Idx → EReal) (w : (⟨2, ![8192, 8192]⟩ : Shape).Idx → EReal) : EReal :=
  ∑ i : Fin 100, ∑ q : Fin 8192, prodAt d w i q * prodAt d w i q

/-- The 32 tile sums add up to the Frobenius term. -/
theorem sum_tileSq (d : (⟨2, ![100, 8192]⟩ : Shape).Idx → EReal) (w : (⟨2, ![8192, 8192]⟩ : Shape).Idx → EReal) :
    ∑ n : Fin 32, tileSq d w n = frobSq d w :=
  sum_tiles fun i q => prodAt d w i q * prodAt d w i q

/-- The tile sum at a natural number: tile `t` for `t < 32`, zero beyond. -/
def tileSqN (d : (⟨2, ![100, 8192]⟩ : Shape).Idx → EReal) (w : (⟨2, ![8192, 8192]⟩ : Shape).Idx → EReal)
    (t : ℕ) : EReal :=
  if h : t < 32 then tileSq d w ⟨t, h⟩ else 0

/-- The running sum of the tile sums over the first 32 naturals is the Frobenius term. -/
theorem sum_range_tileSqN (d : (⟨2, ![100, 8192]⟩ : Shape).Idx → EReal) (w : (⟨2, ![8192, 8192]⟩ : Shape).Idx → EReal) :
    ∑ t ∈ Finset.range 32, tileSqN d w t = frobSq d w := by
  rw [Finset.sum_range, ← sum_tileSq]
  exact Finset.sum_congr rfl fun n _ => dif_pos n.isLt

end Cert.Frob

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.TileValue.lean ====
/-
  The value of one tile's store, on the extended reals.

  At a grid point the kernel multiplies the whole 100×8192 block `x` by a 8192×256 column tile `y` into a zero
  accumulator, squares the 100×256 product entry by entry, sums each row over its 256 lanes, then sums the 100 row
  sums, and adds the result to what the scratch cell held. On the extended reals a change of float format is the
  identity, the product into the zero array is the plain sum over the shared axis, and each lane reduction is the plain
  finite sum over its axis, so the stored cell is `a + Σ_i Σ_j (Σ_k x (i, k) · y (k, j))²`.
-/
import proofs.«145861_j36756330119753_1_alg».proof.Proof.FrobSpec
import proofs.«145861_j36756330119753_1_alg».proof.Proof.LibPlainDot
import Idealize.ShloMosaic.Lib.Pipeline.Value
import Idealize.ShloMosaic.Lib.ValueLayout

noncomputable section

namespace Cert.Frob

open Idealize.ShloMosaic Idealize.ShloMosaic.ValueIdx

/-- An `[a]` array cast to a column `[a, 1]` reads, at `(i, u)`, the operand at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Summing a 100×256 array over its lanes, then the column of row sums over its rows, leaves in the one cell the sum of
    all its entries, row by row. -/
theorem rows_of_lanes_sum (v : FVec Ideal ⟨2, ![100, 256]⟩ .f32)
    (h1 : (⟨2, ![100, 256]⟩ : Shape).Reduces [1] ⟨1, ![100]⟩) (hφ1 : FKind.Formats .f32)
    (hacc1 : (0x00000000#32 : BitVec 32) = FKind.add.neutral .f32 hφ1)
    (c1 : (⟨1, ![100]⟩ : Shape).ShapeCasts ⟨2, ![100, 1]⟩)
    (h2 : (⟨2, ![100, 1]⟩ : Shape).Reduces [0] ⟨1, ![1]⟩) (hφ2 : FKind.Formats .f32)
    (hacc2 : (0x00000000#32 : BitVec 32) = FKind.add.neutral .f32 hφ2)
    (c2 : (⟨1, ![1]⟩ : Shape).ShapeCasts ⟨2, ![1, 1]⟩) (p q : Fin 1) :
    shapeCast ⟨2, ![1, 1]⟩
        (multiReduction .add [0] ⟨1, ![1]⟩
          (shapeCast ⟨2, ![100, 1]⟩ (multiReduction .add [1] ⟨1, ![100]⟩ v 0x00000000#32 h1 hφ1 hacc1) c1)
          0x00000000#32 h2 hφ2 hacc2) c2 (ix2 p q)
      = ∑ i : Fin 100, ∑ j : Fin 256, v (ix2 i j) := by
  rw [shapeCast_a_1a_apply, Ideal.multiReduction_add_single]
  show ∑ i : Fin 100, _ = _
  refine Finset.sum_congr rfl fun i _ => ?_
  have e2 : h2.lift (ix1 q) i = ix2 i q := funext fun a => Fin.ext (by
    match a with
    | ⟨0, _⟩ => rfl
    | ⟨1, _⟩ => rfl)
  rw [e2]
  refine (shapeCast_col_apply _ c1 i q).trans ?_
  rw [Ideal.multiReduction_add_single]
  show ∑ j : Fin 256, _ = _
  refine Finset.sum_congr rfl fun j _ => ?_
  have e1 : h1.lift (ix1 i) j = ix2 i j := funext fun a => Fin.ext (by
    match a with
    | ⟨0, _⟩ => rfl
    | ⟨1, _⟩ => rfl)
  rw [e1]

end Cert.Frob

end
-- ==== Proof.KernelValue.lean ====
/-
  The kernel's result array, on the extended reals.

  The grid has 32 points. At point `t` the body sees the whole 100×8192 array `d` (its block index never moves) and
  columns `256 t … 256 t + 255` of the 8192×8192 array `w`, and adds to its one-cell accumulator the sum of the squared
  entries of that 100×256 tile of `d · w`; the accumulator starts from the zero cell at point 0, and the last point
  copies it into the 1×1 output block, the only block written back. So after point `n` the accumulator holds the sum
  of the first `n + 1` tile sums, and the output array ends holding all 32 of them: the sum of the squares of every
  entry of `d · w`. Nothing here depends on the inputs being finite: the sums are over the extended reals, and the
  only laws used are `0 + x = x` and the recursion of a finite sum.
-/
import proofs.«145861_j36756330119753_1_alg».proof.Proof.Pieces
import proofs.«145861_j36756330119753_1_alg».proof.Proof.TileValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Frob

variable (m : (ℓ : Loc nD τ sig) → Buf (Elt Ideal) ℓ) (ρ : Dev nD → PrngReg)

/-- The two arrays as the region finds them: `d`, written by the host line before the region, and `w`, an argument. -/
abbrev dArr (c : Dev nD) : Vec Ideal S100x8192 .f32 := V m c main_v66
abbrev wArr (c : Dev nD) : Vec Ideal S8192x8192 .f32 := V m c main_arg2
/-- and their blocks at a grid point. -/
abbrev dBlk (c : Dev nD) (t : Fin cfg0.N) : Vec Ideal S100x8192 .f32 := iblk m c 0 t
abbrev wBlk (c : Dev nD) (t : Fin cfg0.N) : Vec Ideal S8192x256 .f32 := iblk m c 1 t

/-! ## The accumulator and the output, point by point -/

/-- At the first point the accumulator ends at the update of the zero cell. -/
theorem scratch_first (c : Dev nD) (t : Fin cfg0.N) (h0 : t.val % 32 = 0) :
    (outsAt0 m c t.val t.isLt).2 = k0_pay2 (dBlk m c t) (wBlk m c t) (k0_pay1 (F := Ideal)) := by
  have h1 : ¬t.val % 32 = 31 := by omega
  rw [outsAt0_A m c t h0 h1]
  dsimp only
  exact Body.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (dBlk m c t) (wBlk m c t)

/-- At every later point it ends at the update of what the point before left. -/
theorem scratch_step (c : Dev nD) (t : Fin cfg0.N) (h0 : ¬t.val % 32 = 0) :
    (outsAt0 m c t.val t.isLt).2
      = k0_pay2 (dBlk m c t) (wBlk m c t) (outsAt0 m c (t.val - 1) (Nat.lt_of_le_of_lt (Nat.sub_le _ _) t.isLt)).2 := by
  by_cases h1 : t.val % 32 = 31
  · rw [outsAt0_C m c t h0 h1]
    dsimp only
    exact Body.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (dBlk m c t) (wBlk m c t) _
  · rw [outsAt0_B m c t h0 h1]
    dsimp only
    exact Body.scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (dBlk m c t) (wBlk m c t) _

/-- At the last point the output block holds the same update. -/
theorem out_last (c : Dev nD) (t : Fin cfg0.N) (h1 : t.val % 32 = 31) :
    (outsAt0 m c t.val t.isLt).1
      = k0_pay2 (dBlk m c t) (wBlk m c t) (outsAt0 m c (t.val - 1) (Nat.lt_of_le_of_lt (Nat.sub_le _ _) t.isLt)).2 := by
  have h0 : ¬t.val % 32 = 0 := by omega
  rw [outsAt0_C m c t h0 h1]
  dsimp only
  exact Body.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (dBlk m c t) (wBlk m c t) _

/-! ## The update's value on the extended reals -/

/-- Entry (i, j) of the body's product: the two operands changed to bf16 (the identity on the extended reals) and
    multiplied into the zero array. -/
theorem prod_apply (x0 : Vec Ideal S100x8192 .f32) (x1 : Vec Ideal S8192x256 .f32) (i : Fin 100) (j : Fin 256) :
    matmul (F := Ideal) dot_S100x8192_S8192x256_S100x256_1_0_0_1_n_n none
        (truncf FTy.bf16 (shapeCast S100x8192 x0 shapeCasts_S100x8192_S100x8192) bitsLt_bf16_f32)
        (truncf FTy.bf16 x1 bitsLt_bf16_f32) (constant (F := Ideal) S100x256 FTy.f32 0x00000000#32) (ix2 i j)
      = ∑ k : Fin 8192, x0 (ix2 i k) * x1 (ix2 k j) := by
  refine (PlainDot.matmul_zero_apply 100 8192 256 _ _ i j).trans ?_
  refine Finset.sum_congr rfl fun k _ => ?_
  exact congrArg (· * x1 (ix2 k j)) (congrFun (shapeCast_self x0 _) (ix2 i k))

/-- The update of a cell `a` by blocks `x` (100×8192) and `y` (8192×256): `a` plus the sum of the squared entries of
    `x · y`. The change to bf16 is the identity on the extended reals, the product into the zero array the plain sum over
    the shared axis, and the two lane reductions the plain sums over the 256 lanes and over the 100 rows. -/
theorem pay2_apply (x0 : Vec Ideal S100x8192 .f32) (x1 : Vec Ideal S8192x256 .f32) (a : Vec Ideal S1x1 .f32) (y : S1x1.Idx) :
    k0_pay2 x0 x1 a y = a y + ∑ i : Fin 100, ∑ j : Fin 256,
      (∑ k : Fin 8192, x0 (ix2 i k) * x1 (ix2 k j)) * (∑ k : Fin 8192, x0 (ix2 i k) * x1 (ix2 k j)) := by
  obtain ⟨p, q, rfl⟩ : ∃ (p q : Fin 1), y = ix2 p q := ⟨y 0, y 1, eq_ix2 y⟩
  unfold k0_pay2
  dsimp only
  rw [shapeCast_self]
  show a (ix2 p q) + _ = _
  refine congrArg (a (ix2 p q) + ·) ?_
  refine (rows_of_lanes_sum _ _ _ _ _ _ _ _ _ p q).trans ?_
  refine Finset.sum_congr rfl fun i _ => Finset.sum_congr rfl fun j _ => ?_
  exact congrArg₂ (· * ·) (prod_apply x0 x1 i j) (prod_apply x0 x1 i j)

/-- The cell the reset stores is zero. -/
theorem pay1_apply (y : S1x1.Idx) : k0_pay1 (F := Ideal) y = 0 := by
  unfold k0_pay1
  rw [shapeCast_self]
  exact Ideal.ofBits_zero_f32

/-! ## The blocks the body sees -/

/-- Block indices over the grid: `d`'s block never moves; `w`'s is column tile `t`. -/
theorem idx_facts : ∀ t : Fin cfg0.N, win0_0.index t 0 = 0 ∧ win0_0.index t 1 = 0 ∧ win0_1.index t 0 = 0 ∧ win0_1.index t 1 = t.val :=
  (by decide +kernel : ∀ t : Fin grid0.N, win0_0.index t 0 = 0 ∧ win0_0.index t 1 = 0 ∧ win0_1.index t 0 = 0 ∧ win0_1.index t 1 = t.val)

/-- `d`'s block at any point is `d`. -/
theorem dBlk_apply (c : Dev nD) (t : Fin cfg0.N) (i : Fin 100) (k : Fin 8192) :
    dBlk m c t (ix2 i k) = dArr m c (ix2 i k) := by
  show iblk m c 0 t (ix2 i k) = _
  unfold iblk
  rw [View.read_apply]
  show V m c main_v66 _ = V m c main_v66 _
  congr 1
  funext a
  apply Fin.ext
  match a with
  | ⟨0, _⟩ => show win0_0.index t 0 * 100 + 1 * i.val = i.val; rw [(idx_facts t).1]; omega
  | ⟨1, _⟩ => show win0_0.index t 1 * 8192 + 1 * k.val = k.val; rw [(idx_facts t).2.1]; omega

/-- `w`'s block at point `t` is its column tile `t`: entry `(k, j)` of the block is entry `(k, 256 t + j)` of `w`. -/
theorem wBlk_apply (c : Dev nD) (t : Fin cfg0.N) (ht : t.val < 32) (k : Fin 8192) (j : Fin 256) :
    wBlk m c t (ix2 k j) = wArr m c (ix2 k (col ⟨t.val, ht⟩ j)) := by
  show iblk m c 1 t (ix2 k j) = _
  unfold iblk
  rw [View.read_apply]
  show V m c main_arg2 _ = V m c main_arg2 _
  congr 1
  funext a
  apply Fin.ext
  match a with
  | ⟨0, _⟩ => show win0_1.index t 0 * 8192 + 1 * k.val = k.val; rw [(idx_facts t).2.2.1]; omega
  | ⟨1, _⟩ => show win0_1.index t 1 * 256 + 1 * j.val = 256 * t.val + j.val; rw [(idx_facts t).2.2.2]; omega

/-- So the update at point `t` adds tile `t`'s sum of squares to the cell. -/
theorem tile_at (c : Dev nD) (t : Fin cfg0.N) (a : Vec Ideal S1x1 .f32) (y : S1x1.Idx) :
    k0_pay2 (dBlk m c t) (wBlk m c t) a y = a y + tileSqN (dArr m c) (wArr m c) t.val := by
  have ht : t.val < 32 := lt_of_lt_of_eq t.isLt (show cfg0.N = 32 from N_0)
  rw [pay2_apply]
  refine congrArg (a y + ·) ?_
  unfold tileSqN
  rw [dif_pos ht]
  unfold tileSq prodAt
  simp only [dBlk_apply m c t, wBlk_apply m c t ht]

/-! ## The running sum -/

/-- After point `n` the accumulator holds the sum of the first `n + 1` tile sums: by induction on the point. -/
theorem scratch_eq (c : Dev nD) : ∀ (n : ℕ) (hn : n < cfg0.N),
    (outsAt0 m c n hn).2 = fun _ => ∑ t ∈ Finset.range (n + 1), tileSqN (dArr m c) (wArr m c) t
  | 0, h => by
    funext y
    refine (congrFun (scratch_first m c ⟨0, h⟩ rfl) y).trans ?_
    rw [tile_at, pay1_apply, zero_add, Finset.sum_range_one]
  | n + 1, h => by
    funext y
    have hN : cfg0.N = 32 := N_0
    have h0 : ¬(⟨n + 1, h⟩ : Fin cfg0.N).val % 32 = 0 := by dsimp only; omega
    refine (congrFun (scratch_step m c ⟨n + 1, h⟩ h0) y).trans ?_
    rw [tile_at]
    show (outsAt0 m c n (Nat.lt_of_succ_lt h)).2 y + tileSqN (dArr m c) (wArr m c) (n + 1) = _
    rw [scratch_eq c n (Nat.lt_of_succ_lt h), Finset.sum_range_succ _ (n + 1)]

/-- At the last point the output block holds all 32 tile sums: the sum of the squares of every entry of `d · w`. -/
theorem out_eq (c : Dev nD) (t : Fin cfg0.N) (h1 : t.val % 32 = 31) :
    (outsAt0 m c t.val t.isLt).1 = fun _ => frobSq (dArr m c) (wArr m c) := by
  have hN : cfg0.N = 32 := N_0
  obtain ⟨tv, htv⟩ := t
  have h31 : tv = 31 := by dsimp only at h1; omega
  subst h31
  funext y
  refine (congrFun (out_last m c ⟨31, htv⟩ h1) y).trans ?_
  rw [tile_at]
  show (outsAt0 m c 30 _).2 y + tileSqN (dArr m c) (wArr m c) 31 = _
  rw [scratch_eq m c 30, ← Finset.sum_range_succ _ 31]
  exact sum_range_tileSqN _ _

/-! ## The output array -/

/-- What the output array ends holding: in its one cell, the sum of the squares of every entry of `d · w`. -/
abbrev total (c : Dev nD) : Buf (Elt Ideal) ((c : Thread nD τ).loc main_v67) := fun _ => frobSq (dArr m c) (wArr m c)

/-- The one write-back, at the last point, writes that cell. -/
theorem flushed_eq (c : Dev nD) (t : Fin cfg0.N) (hf : (cfg0.win 2).flush t = true) :
    (dats m 0 c).flushed 2 t = ((cfg0.win 2).blk t).view.read (Elt Ideal) (total m c) := by
  have h31 : t.val % 32 = 31 := (flush0_2 t).mp hf
  show (cfg0.win 2).cut (grid0.coords t) ((dats m 0 c).after 2 t) = _
  rw [after0_2, out_eq m c t h31]
  funext y
  rfl

/-- The output's block index is (0, 0) at every point. -/
theorem out_idx : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An index of the 1×1 array is in point `t`'s block iff each coordinate is in the block's range on its axis. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v67).slice (win0_2.rect t)).set ↔ _
  rw [View.set_slice_whole, Rect.mem_set_unit]
  exact Iff.rfl

/-- The last point's block is the whole 1×1 array, so the array ends at that cell. -/
theorem final_out (c : Dev nD) : (dats m 0 c).arrAt 2 cfg0.N = total m c := by
  have hN : cfg0.N = 32 := N_0
  refine (dats m 0 c).arrAt_eq_of_cover 2 (total m c) (flushed_eq m c) fun i => ?_
  refine ⟨⟨31, by omega⟩, (flush0_2 _).mpr rfl, ?_⟩
  rw [mem_blk]
  obtain ⟨e0, e1⟩ := out_idx ⟨31, by omega⟩
  intro a
  match a with
  | ⟨0, _⟩ =>
    show win0_2.index _ (0 : Fin 2) * 1 ≤ (i 0).val ∧ (i 0).val < win0_2.index _ (0 : Fin 2) * 1 + 1
    have h : (i 0).val < 1 := (i 0).isLt
    omega
  | ⟨1, _⟩ =>
    show win0_2.index _ (1 : Fin 2) * 1 ≤ (i 1).val ∧ (i 1).val < win0_2.index _ (1 : Fin 2) * 1 + 1
    have h : (i 1).val < 1 := (i 1).isLt
    omega

/-! ## The host lines after the region -/

/-- The scalar the host lines before the region leave in `%65`. -/
abbrev mmd (c : Dev nD) : FVec Ideal S_ .f32 := V m c main_v65

/-- The program's result: that scalar plus the sum of the squares of every entry of `d · w`. -/
abbrev result (c : Dev nD) : FVec Ideal S_ .f32 := addf (mmd m c) (fun _ => frobSq (dArr m c) (wArr m c))

/-- The two host lines after the region reshape the 1×1 output array to a scalar and add it to `%65`, which no line of
    the region or after it writes. -/
theorem tail_eq (c : Dev nD) :
    Pipeline.afterTail₀ cfgs (dats m) 0 (V0 m) [hostOps1] c main_v69 = result m c := by
  unfold Pipeline.afterTail₀
  show StableHlo.after hostOps1 _ (Proc.devRef .tc main_v69) = _
  after_results
  have hA : Pipeline.withArrays (cfgs 0).spec c (V0 m c) (fun w => (dats m 0 c).arrAt w (cfgs 0).N) (Proc.devRef .tc main_v65)
      = V m c main_v65 :=
    Pipeline.withArrays_of_ne _ c (V0 m c) _ main_v65 (by exact (by decide : ∀ w, Pipeline.arrRef spec0 w ≠ main_v65))
  have hB : Pipeline.withArrays (cfgs 0).spec c (V0 m c) (fun w => (dats m 0 c).arrAt w (cfgs 0).N) (Proc.devRef .tc main_v67)
      = total m c :=
    (Pipeline.withArrays_arr spec0 launch0.win.arr_inj c (V0 m c) _ 2).trans (final_out m c)
  rw [hA, hB]
  rfl

/-! ## The run, read -/

/-- At the compiled mesh, from any memory with zero counters: every weakly fair execution of the kernel's program
    terminates with its result at `result` and its three arguments unchanged. -/
theorem run : θ_run defs (onTc (τ := τ) (main (F := Ideal))) ⟨m, fun _ => 0, ρ⟩ fun r => ∀ c : Dev nD,
      r.2.mem ((c : Thread nD τ).loc main_v69) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v69 (Pipeline.mem_restRefs_of main_v69 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Acc

end
-- ==== Proof.LibTypedRef.lean ====
/-
  Typed references to literal buffers: moving contents to the buffer's own type and back changes nothing.

  A module-local function's operations are stated over typed references; the value an operation writes is moved from
  the value's type `T` to the buffer's type `r.ty` along the reference's proof `r.ty = T`, and an operand is moved
  back along the same proof. Where one operation's result feeds the next, the two moves meet and cancel. The statement
  is generic in the reference table, the buffer and its type, and is proved by substituting the type equation, so using
  it never asks Lean to compute a buffer's type from the table.
-/
import Idealize.ShloMosaic.Lib.StableHlo

namespace Idealize.ShloMosaic.TypedRef

open Idealize.ShloMosaic Idealize.ShloMosaic.StableHlo

/-- Contents moved to a literal typed reference's buffer type and back are unchanged. -/
theorem ofBuf_toBuf {sig : RefSig} {Val : EltTy → Type} (r : Ref sig .tc) (T : BufTy) (h1 : r.ty = T) (h2 : r.space ≠ .host)
    (h3 : r.isScoped = false) (v : T.Contents Val) :
    (TRef.of r h1 h2 h3).ofBuf (Val := Val) ((TRef.of r h1 h2 h3).toBuf v) = v := by
  subst h1; rfl

end Idealize.ShloMosaic.TypedRef
-- ==== Proof.KernelHost.lean ====
/-
  What the kernel's host lines before the region leave, read as functions of the arguments.

  Before the region the kernel's program runs the same host operations as the reference: the pairwise Gaussian term of
  the first two arguments, a scalar, and then the difference `arg0 − arg1`, the array the region multiplies. Read at
  those two buffers, the fold of the host lines over the launch memory is the reference's stage function of the same
  arguments (the scalar) and the plain difference (the array). The three calls of the upper-triangle function are over
  typed references, treated as in the reference's run: meeting moves cancel, and a single move at a call's input or
  output is the identity.
-/
import proofs.«145861_j36756330119753_1_alg».proof.Proof.Gen.KernelIdeal.Frame
import proofs.«145861_j36756330119753_1_alg».proof.Proof.RefReadP
import proofs.«145861_j36756330119753_1_alg».proof.Proof.LibTypedRef
import Idealize.ShloMosaic.Lib.StableHlo.Run

noncomputable section

open Idealize.ShloMosaic Idealize.ShloMosaic.TcCoe Idealize.SL.Sem Idealize.ShloMosaic.StableHlo

namespace Cert.KernelIdeal.HostSide

open Cert.KernelIdeal Cert.KernelIdeal.Gen Idealize.ShloMosaic.TypedRef

variable {F : FTy → Type} [FloatOps F]
variable (m : (ℓ : Loc nD τ sig) → Buf (Elt F) ℓ)

/-- A value moved to the buffer of an upper-triangle call's result is the value: the buffer's type is the value's. -/
theorem toBuf_v54 (x : Vec F S100x100 .f32) : (TRef.of main_v54 : TRef sig ⟨S100x100, .f32⟩).toBuf x = x := rfl
theorem toBuf_v57 (x : Vec F S100x100 .f32) : (TRef.of main_v57 : TRef sig ⟨S100x100, .f32⟩).toBuf x = x := rfl
theorem toBuf_v60 (x : Vec F S100x100 .f32) : (TRef.of main_v60 : TRef sig ⟨S100x100, .f32⟩).toBuf x = x := rfl
/-- and so is the operand of such a call read from its buffer. -/
theorem ofBuf_v17 (x : Vec F S100x100 .f32) : (TRef.of main_v17 : TRef sig ⟨S100x100, .f32⟩).ofBuf x = x := rfl
theorem ofBuf_v35 (x : Vec F S100x100 .f32) : (TRef.of main_v35 : TRef sig ⟨S100x100, .f32⟩).ofBuf x = x := rfl
theorem ofBuf_v53 (x : Vec F S100x100 .f32) : (TRef.of main_v53 : TRef sig ⟨S100x100, .f32⟩).ofBuf x = x := rfl

set_option maxRecDepth 8192 in
set_option maxHeartbeats 46000000 in
/-- The region finds the scalar `%65` at the pairwise Gaussian term of the first two arguments: the reference's stage
    function of them. -/
theorem V_v65 (c : Dev nD) :
    (V m c main_v65 : Vec F S_ .f32)
      = Cert.ReferenceIdeal.ReadP.val_main_v65 (F := F) (m ((c : Thread nD τ).loc main_arg0)) (m ((c : Thread nD τ).loc main_arg1)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  simp only [ofBuf_toBuf]
  simp only [toBuf_v54, toBuf_v57, toBuf_v60, ofBuf_v17, ofBuf_v35, ofBuf_v53]
  rfl

set_option maxRecDepth 8192 in
set_option maxHeartbeats 46000000 in
/-- The region finds the array `%66` at the difference of the first two arguments. -/
theorem V_v66 (c : Dev nD) :
    (V m c main_v66 : Vec F S100x8192 .f32) = subf (m ((c : Thread nD τ).loc main_arg0)) (m ((c : Thread nD τ).loc main_arg1)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp

end Cert.KernelIdeal.HostSide

end
-- ==== Proof.RefRun.lean ====
/-
  The reference's run, read back as one function of its three arguments.

  The reference is a straight line of 115 host operations. Every weakly fair execution of it terminates with each
  buffer at the fold of the operations' results over the launch contents; read at the result buffer, that fold is the
  composition of the operations' stage functions: the pairwise Gaussian term of the first two arguments plus the sum of
  the squared entries of `(arg0 − arg1) · arg2`. The three calls of the upper-triangle function are stated over typed
  references: where a moved value feeds the next operation the two moves cancel (one general lemma), and at the three
  inputs and three outputs of those calls a single move is the identity because the buffer's type is literally the
  value's. The arguments are written by no operation.
-/
import proofs.«145861_j36756330119753_1_alg».proof.Proof.RefReadP
import proofs.«145861_j36756330119753_1_alg».proof.Proof.LibTypedRef
import Idealize.ShloMosaic.Lib.StableHlo.Run

noncomputable section

open Idealize.ShloMosaic Idealize.ShloMosaic.TcCoe Idealize.SL.Sem Idealize.ShloMosaic.StableHlo

namespace Cert.ReferenceIdeal.RunHand

open Cert.ReferenceIdeal Cert.ReferenceIdeal.Gen Cert.ReferenceIdeal.ValueP Idealize.ShloMosaic.TypedRef

variable {F : FTy → Type} [FloatOps F]

/-- A value moved to the buffer of an upper-triangle call's result is the value: the buffer's type is the value's. -/
theorem toBuf_v54 (x : Vec F S100x100 .f32) : (TRef.of main_v54 : TRef sig ⟨S100x100, .f32⟩).toBuf x = x := rfl
theorem toBuf_v57 (x : Vec F S100x100 .f32) : (TRef.of main_v57 : TRef sig ⟨S100x100, .f32⟩).toBuf x = x := rfl
theorem toBuf_v60 (x : Vec F S100x100 .f32) : (TRef.of main_v60 : TRef sig ⟨S100x100, .f32⟩).toBuf x = x := rfl
/-- and so is the operand of such a call read from its buffer. -/
theorem ofBuf_v17 (x : Vec F S100x100 .f32) : (TRef.of main_v17 : TRef sig ⟨S100x100, .f32⟩).ofBuf x = x := rfl
theorem ofBuf_v35 (x : Vec F S100x100 .f32) : (TRef.of main_v35 : TRef sig ⟨S100x100, .f32⟩).ofBuf x = x := rfl
theorem ofBuf_v53 (x : Vec F S100x100 .f32) : (TRef.of main_v53 : TRef sig ⟨S100x100, .f32⟩).ofBuf x = x := rfl

set_option maxRecDepth 8192 in
set_option maxHeartbeats 46000000 in
/-- The fold of the 115 operations over the launch contents, at the result buffer, is the last stage function of the
    three arguments. -/
theorem result_eq (m : (ℓ : Loc nD τ sig) → Buf (Elt F) ℓ) (c : Dev nD) :
    after (ops (F := F)) (launchContents m c) (Proc.devRef .tc main_v70)
      = Cert.ReferenceIdeal.ReadP.val_main_v70 (F := F) (m ((c.tc : Thread nD τ).loc main_arg0))
          (m ((c.tc : Thread nD τ).loc main_arg1)) (m ((c.tc : Thread nD τ).loc main_arg2)) := by
  after_results_simp
  simp only [ofBuf_toBuf]
  simp only [toBuf_v54, toBuf_v57, toBuf_v60, ofBuf_v17, ofBuf_v35, ofBuf_v53]
  rfl

set_option maxRecDepth 8192 in
set_option maxHeartbeats 46000000 in
/-- On every device, from any memory with zero counters: every weakly fair execution of the reference terminates with its
    result at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
          = Cert.ReferenceIdeal.ReadP.val_main_v70 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v70).trans (result_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunHand

end
-- ==== Proof.Bridge.lean ====
/-
  The two programs compute one function of the arguments.

  The reference's result is the pairwise Gaussian scalar of the first two arguments plus the host's sum, over all
  100 × 8192 entries at once and from the zero, of the squared entries of `(arg0 − arg1) · arg2`, each entry the host's
  sum over the shared axis. The kernel's result is the same scalar (the host lines before its region are the
  reference's) plus the sum of the 32 tile sums of the same squared entries. A sum over the index pairs of a 100×8192
  array is the double sum over its coordinates, the initial zero adds nothing, and the tile sums regroup the columns:
  the two results are equal extended reals, whatever the arguments hold.
-/
import proofs.«145861_j36756330119753_1_alg».proof.Proof.KernelValue
import proofs.«145861_j36756330119753_1_alg».proof.Proof.KernelHost
import proofs.«145861_j36756330119753_1_alg».proof.Proof.RefRun

noncomputable section

open Idealize.ShloMosaic Idealize.ShloMosaic.TcCoe Idealize.SL.Sem Idealize.ShloMosaic.ValueIdx

namespace Cert.Bridge

open Cert.Frob

/-- The reference's sum of squares is the Frobenius term of its difference array and its third argument: the host's
    reduction over both axes from the zero is the double sum over rows and columns, and each entry of its
    `dot_general` is the sum over the shared axis. -/
theorem ref_frob (x0 x1 : (⟨Cert.ReferenceIdeal.S100x8192, .f32⟩ : BufTy).Contents (Elt Ideal))
    (x2 : (⟨Cert.ReferenceIdeal.S8192x8192, .f32⟩ : BufTy).Contents (Elt Ideal)) (i : Cert.ReferenceIdeal.S_.Idx) :
    Cert.ReferenceIdeal.ReadP.val_main_v69 (F := Ideal) x0 x1 x2 i
      = frobSq (Cert.ReferenceIdeal.ReadP.val_main_v66 (F := Ideal) x0 x1) x2 := by
  rw [Cert.ReferenceIdeal.ReadP.val_main_v69_apply, Cert.ReferenceIdeal.ReadP.val_main_cst_18_apply]
  show Ideal.ofBits .f32 0x00000000#32 + _ = _
  rw [Ideal.ofBits_zero_f32, zero_add, sum_idx2]
  unfold frobSq
  refine Finset.sum_congr rfl fun a _ => Finset.sum_congr rfl fun b _ => ?_
  rw [Cert.ReferenceIdeal.ReadP.val_main_v68_apply]
  show Cert.ReferenceIdeal.ReadP.val_main_v67 (F := Ideal) x0 x1 x2 (ix2 a b)
      * Cert.ReferenceIdeal.ReadP.val_main_v67 (F := Ideal) x0 x1 x2 (ix2 a b) = _
  rw [Cert.ReferenceIdeal.ReadP.val_main_v67_apply]
  unfold prodAt
  have el : ∀ k : Fin 8192, Cert.ReferenceIdeal.ReadP.lidx_main_v67 (ix2 a b) k = ix2 a k := fun k =>
    funext fun d => Fin.ext (by
      match d with
      | ⟨0, _⟩ => rfl
      | ⟨1, _⟩ => rfl)
  have er : ∀ k : Fin 8192, Cert.ReferenceIdeal.ReadP.ridx_main_v67 (ix2 a b) k = ix2 k b := fun k =>
    funext fun d => Fin.ext (by
      match d with
      | ⟨0, _⟩ => rfl
      | ⟨1, _⟩ => rfl)
  simp only [el, er]

open Cert.KernelIdeal Cert.KernelIdeal.Gen in
/-- The reference's last stage, at the kernel's argument arrays, is the kernel's result. -/
theorem result_eq (m : (ℓ : Loc Cert.KernelIdeal.nD Cert.KernelIdeal.τ Cert.KernelIdeal.sig) → Buf (Elt Ideal) ℓ) (c : Dev Cert.KernelIdeal.nD) :
    Cert.ReferenceIdeal.ReadP.val_main_v70 (F := Ideal) (m ((c : Thread nD τ).loc main_arg0)) (m ((c : Thread nD τ).loc main_arg1))
        (m ((c : Thread nD τ).loc main_arg2))
      = Cert.KernelIdeal.Acc.result m c := by
  funext i
  rw [Cert.ReferenceIdeal.ReadP.val_main_v70_apply, ref_frob]
  show _ + _ = Cert.KernelIdeal.Acc.mmd m c i + frobSq (Cert.KernelIdeal.Acc.dArr m c) (Cert.KernelIdeal.Acc.wArr m c)
  have h65 : Cert.KernelIdeal.Acc.mmd m c = _ := Cert.KernelIdeal.HostSide.V_v65 (F := Ideal) m c
  have h66 : Cert.KernelIdeal.Acc.dArr m c = _ := Cert.KernelIdeal.HostSide.V_v66 (F := Ideal) m c
  have h2 : Cert.KernelIdeal.Acc.wArr m c = _ := V_main_arg2 m c
  rw [h65, h66, h2]
  rfl

end Cert.Bridge

end
-- ==== Proof.lean ====
/-
  The certificate of the weighted Frobenius kernel against its jnp reference, over the extended reals.

  Both programs return `mmd + frob`. The scalar `mmd` (a pairwise Gaussian-kernel term of the first two arguments) is
  computed by the same host operations in both. `frob` is the sum of the squares of all entries of `(arg0 − arg1) · arg2`:
  the reference takes one matrix product and one sum over both axes; the kernel walks the 8192 columns in 32 tiles of
  256, and at each tile adds to a one-cell accumulator (zeroed at the first tile) the row-by-row sum of the squared
  entries of that tile of the product, its operands changed to bf16 first. On the extended reals the change of format is
  the identity, each product entry is the same sum over the shared axis, and the tile-by-tile sum is the whole sum
  regrouped: addition is commutative and associative there, so the two results are equal whatever the inputs hold, and
  the finiteness precondition is never opened.

  The frames of the two kernel programs are the generated frame certificates. The reference's run is read off its
  straight line of host operations (Proof/RefRun.lean); the kernel's value off its generated frame run
  (Proof/KernelValue.lean: the accumulator after each grid point, by induction on the point; Proof/KernelHost.lean:
  what the host lines before the region leave); Proof/Bridge.lean joins the two. The ideal pass rewrote nothing, so
  the idealization claim is trivial.
-/
import proofs.«145861_j36756330119753_1_alg».proof.Defs
import proofs.«145861_j36756330119753_1_alg».proof.Proof.Gen.Kernel
import proofs.«145861_j36756330119753_1_alg».proof.Proof.Gen.Kernel.Skeleton
import proofs.«145861_j36756330119753_1_alg».proof.Proof.Gen.Kernel.Launch
import proofs.«145861_j36756330119753_1_alg».proof.Proof.Gen.Kernel.Points
import proofs.«145861_j36756330119753_1_alg».proof.Proof.Gen.Kernel.Frame
import proofs.«145861_j36756330119753_1_alg».proof.Proof.Gen.KernelIdeal
import proofs.«145861_j36756330119753_1_alg».proof.Proof.Gen.KernelIdeal.Skeleton
import proofs.«145861_j36756330119753_1_alg».proof.Proof.Gen.KernelIdeal.Launch
import proofs.«145861_j36756330119753_1_alg».proof.Proof.Gen.KernelIdeal.Points
import proofs.«145861_j36756330119753_1_alg».proof.Proof.Gen.KernelIdeal.Frame
import proofs.«145861_j36756330119753_1_alg».proof.Proof.Gen.ReferenceIdeal
import proofs.«145861_j36756330119753_1_alg».proof.Proof.Gen.Pre_finite_inputs
import proofs.«145861_j36756330119753_1_alg».proof.Proof.Bridge
import Idealize.ShloMosaic.Adequacy
import Idealize.ShloMosaic.Init

noncomputable section

namespace Cert.Proof

open Idealize.ShloMosaic Idealize.SL.Sem

/-- The word-level kernel runs and leaves its arguments unchanged: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The ideal pass rewrote no operation. -/
theorem preserves : Cert.preserves_Kernel_KernelIdeal := trivial

/-- From memories that agree on the three arguments, both idealized programs run, and both end with the scalar
    `mmd + frob` of those arguments. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2.1, (hagree c).2.2]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
